-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x6144 : Shape := ⟨2, ![32768, 6144]⟩
abbrev S6144x1024 : Shape := ⟨2, ![6144, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x6144 : S_.BroadcastsInDim S32768x6144 (![] : Fin 0 → Fin S32768x6144.rank)
  reducesTo_S32768x6144_S_d0_1 : S32768x6144.ReducesTo [0, 1] S_
  bcast_S_S6144x1024 : S_.BroadcastsInDim S6144x1024 (![] : Fin 0 → Fin S6144x1024.rank)
  reducesTo_S6144x1024_S_d0_1 : S6144x1024.ReducesTo [0, 1] S_

variable [Facts]

def fn {F : FTy → Type} [FloatOps F] (main_arg0 : FVec F S32768x1024 .f32) (main_arg1 : FVec F S32768x6144 .f32) (main_arg2 : FVec F S6144x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x6144 .f32 := Host.absf main_arg1
  let main_cst_0 : FVec F S_ .f32 := constant S_ .f32 0x7F800000#32
  let main_v5 : FVec F S32768x6144 .f32 := broadcastInDim S32768x6144 ![] bcast_S_S32768x6144 main_cst_0
  let main_v6 : IVec S32768x6144 1 := cmpf .olt main_v4 main_v5
  let main_c_1 : IVec S_ 1 := constantI S_ 1 1#1
  let main_v7 : IVec S_ 1 := (fun x v => Host.reduce IntOp.andi x v reducesTo_S32768x6144_S_d0_1 h_S_) main_v6 main_c_1
  let main_v8 : IVec S_ 1 := andi main_v3 main_v7
  let main_v9 : FVec F S6144x1024 .f32 := Host.absf main_arg2
  let main_cst_2 : FVec F S_ .f32 := constant S_ .f32 0x7F800000#32
  let main_v10 : FVec F S6144x1024 .f32 := broadcastInDim S6144x1024 ![] bcast_S_S6144x1024 main_cst_2
  let main_v11 : IVec S6144x1024 1 := cmpf .olt main_v9 main_v10
  let main_c_3 : IVec S_ 1 := constantI S_ 1 1#1
  let main_v12 : IVec S_ 1 := (fun x v => Host.reduce IntOp.andi x v reducesTo_S6144x1024_S_d0_1 h_S_) main_v11 main_c_3
  let main_v13 : IVec S_ 1 := andi main_v8 main_v12
  main_v13
-- ==== Kernel.lean ====
abbrev S32768x1024 : Shape := ⟨2, ![32768, 1024]⟩
abbrev S32768x6144 : Shape := ⟨2, ![32768, 6144]⟩
abbrev S6144x1024 : Shape := ⟨2, ![6144, 1024]⟩
abbrev S256x1024 : Shape := ⟨2, ![256, 1024]⟩
abbrev S256x6144 : Shape := ⟨2, ![256, 6144]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S6144x1024, .f32⟩
  | .hbm, ⟨3, _⟩ => ⟨S6144x1024, .bf16⟩
  | .hbm, ⟨4, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x6144, .f32⟩
  | .local _ .vmem, ⟨3, _⟩ => ⟨S256x6144, .f32⟩
  | .local _ .vmem, ⟨4, _⟩ => ⟨S6144x1024, .bf16⟩
  | .local _ .vmem, ⟨5, _⟩ => ⟨S256x1024, .f32⟩
  | .local _ .vmem, ⟨6, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6144x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S256x6144_S256x6144_0_0 : ∀ a, (![0, 0] : Fin 2 → Nat) a + S256x6144.size a ≤ S256x6144.size a
  h_S256x6144 : 0 < S256x6144.numel
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  inb_S256x1024_S256x1024_0_0 : ∀ a, (![0, 0] : Fin 2 → Nat) a + S256x1024.size a ≤ S256x1024.size a
  h_S256x1024 : 0 < S256x1024.numel
  dot_S256x6144_S6144x1024_S256x1024_1_0_0_1_n_n_wf : DotDims.WF S256x6144 S6144x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6144.size a ≤ S32768x6144.size a
  hwx0_1 : ∀ i : grid0.Coords, EltTy.bits .f32 = 32 ∨ (Rect.block (s := S32768x6144) S256x6144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144x1024.size a ≤ S6144x1024.size a
  hwx0_2 : ∀ i : grid0.Coords, EltTy.bits .bf16 = 32 ∨ (Rect.block (s := S6144x1024) S6144x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S32768x1024.size a
  hwx0_3 : ∀ i : grid0.Coords, EltTy.bits .f32 = 32 ∨ (Rect.block (s := S32768x1024) S256x1024.size (cc0_transform_3 i) (hinb0_3 i)).WholeWords (EltTy.packing .f32)

variable [Facts₀]

def dot_S256x6144_S6144x1024_S256x1024_1_0_0_1_n_n : DotDims S256x6144 S6144x1024 S256x1024 where
  lhsContracting := [1]
  rhsContracting := [0]
  lhsNonContracting := [0]
  rhsNonContracting := [1]
  lhsBatch := []
  rhsBatch := []
  wf := dot_S256x6144_S6144x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6144x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x6144 : Shape := ⟨2, ![32768, 6144]⟩
abbrev S6144x1024 : Shape := ⟨2, ![6144, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S6144x1024, .f32⟩
  | .hbm, ⟨3, _⟩ => ⟨S32768x1024, .f32⟩
  | .hbm, ⟨4, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S32768x6144_S6144x1024_S32768x1024_1_0_0_1_n_n_wf : DotDims.WF S32768x6144 S6144x1024 S32768x1024 [1] [0] [0] [1] [] []

variable [Facts₀]

def dot_S32768x6144_S6144x1024_S32768x1024_1_0_0_1_n_n : DotDims S32768x6144 S6144x1024 S32768x1024 where
  lhsContracting := [1]
  rhsContracting := [0]
  lhsNonContracting := [0]
  rhsNonContracting := [1]
  lhsBatch := []
  rhsBatch := []
  wf := dot_S32768x6144_S6144x1024_S32768x1024_1_0_0_1_n_n_wf

class Facts : Prop extends Facts₀ where

variable [Facts]
-- ==== Proof.AddMatmul.lean ====
/-
  One function of three arrays: a matrix plus a matrix product, entry by entry, on the extended reals.

  For `C : 32768 × 1024`, `A : 32768 × 6144` and `W : 6144 × 1024` the entry at row `r` and column `c` is
  `C (r, c) + ∑ k, A (r, k) * W (k, c)`, the sum over the 6144 values of the contracted index. No rounding and no
  order of summation is left in it, and no law of the extended reals beyond reading a sum term by term is used:
  both programs are shown to end at this one function, so no finiteness of the entries is needed. Nothing here
  mentions a program.
-/
import Idealize.ShloMosaic.PureOps.Ideal
import Idealize.ShloMosaic.Lib.ValueIdx

noncomputable section

namespace Cert.AddMatmul

open Idealize.ShloMosaic Idealize.ShloMosaic.ValueIdx

/-- `addMatmul C A W (r, c) = C (r, c) + ∑ k, A (r, k) * W (k, c)`. -/
def addMatmul (C : (⟨2, ![32768, 1024]⟩ : Shape).Idx → EReal) (A : (⟨2, ![32768, 6144]⟩ : Shape).Idx → EReal)
    (W : (⟨2, ![6144, 1024]⟩ : Shape).Idx → EReal) : (⟨2, ![32768, 1024]⟩ : Shape).Idx → EReal :=
  fun i => C i + ∑ k : Fin 6144, A (ix2 (i 0) k) * W (ix2 k (i 1))

/-- The same at explicit coordinates. -/
theorem addMatmul_apply (C : (⟨2, ![32768, 1024]⟩ : Shape).Idx → EReal) (A : (⟨2, ![32768, 6144]⟩ : Shape).Idx → EReal)
    (W : (⟨2, ![6144, 1024]⟩ : Shape).Idx → EReal) (r : Fin 32768) (c : Fin 1024) :
    addMatmul C A W (ix2 r c) = C (ix2 r c) + ∑ k : Fin 6144, A (ix2 r k) * W (ix2 k c) := rfl

end Cert.AddMatmul

end
-- ==== Proof.RefValue.lean ====
/-
  The reference program's result is the matrix plus the matrix product.

  The reference adds its first argument to the product of its second and third arguments. Read at an entry
  `(r, c)`, the product is the sum over `k` of the second argument at `(r, k)` times the third at `(k, c)`, so the
  result at `(r, c)` is the first argument there plus that sum: the function `addMatmul` of the three arguments.
-/
import proofs.«409847_j1821066133818_3_alg».proof.Proof.Gen.ReferenceIdeal.Run
import proofs.«409847_j1821066133818_3_alg».proof.Proof.Gen.ReferenceIdeal.Read
import proofs.«409847_j1821066133818_3_alg».proof.Proof.AddMatmul

noncomputable section

namespace Cert.ReferenceIdeal.RefValue

open Cert.ReferenceIdeal Cert.ReferenceIdeal.Gen Cert.ReferenceIdeal.Read
open Idealize.ShloMosaic Idealize.ShloMosaic.ValueIdx Cert.AddMatmul

/-- The left operand's index at output entry `i` and contracted index `k` is `(i 0, k)`. -/
theorem left_index (i : S32768x1024.Idx) (k : Fin 6144) : lidx_main_v0 i k = ix2 (i 0) k :=
  funext fun a => Fin.ext (by match a with | ⟨0, _⟩ => rfl | ⟨1, _⟩ => rfl)

/-- The right operand's index at output entry `i` and contracted index `k` is `(k, i 1)`. -/
theorem right_index (i : S32768x1024.Idx) (k : Fin 6144) : ridx_main_v0 i k = ix2 k (i 1) :=
  funext fun a => Fin.ext (by match a with | ⟨0, _⟩ => rfl | ⟨1, _⟩ => rfl)

/-- The reference's composed term of its arguments is `addMatmul` of them, entry by entry. -/
theorem result_eq (x0 : (⟨S32768x1024, .f32⟩ : BufTy).Contents (Elt Ideal)) (x1 : (⟨S32768x6144, .f32⟩ : BufTy).Contents (Elt Ideal))
    (x2 : (⟨S6144x1024, .f32⟩ : BufTy).Contents (Elt Ideal)) :
    val_main_v1 (F := Ideal) x0 x1 x2 = addMatmul x0 x1 x2 := by
  funext i
  rw [val_main_v1_apply, val_main_v0_apply]
  simp only [left_index, right_index]
  rfl

end Cert.ReferenceIdeal.RefValue

end
-- ==== Proof.BodyValue.lean ====
/-
  What the kernel body computes from the three blocks it loads, read at one entry.

  The body loads a `256 × 6144` block `a`, the whole `6144 × 1024` matrix `w` and a `256 × 1024` block `x`, and stores
  `x + a · w`, the product accumulated into zero. A change of float format is the identity on the extended reals and
  a shape cast to the same shape is the identity, so at entry `(p, q)` the stored value is
  `x (p, q) + ∑ k, a (p, k) * w (k, q)`.
-/
import proofs.«409847_j1821066133818_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx

/-- The left operand's row coordinate is the output's row. -/
theorem lhs_axis0 (i : S256x1024.Idx) (q : dot_S256x6144_S6144x1024_S256x1024_1_0_0_1_n_n.contr.Idx) :
    (dot_S256x6144_S6144x1024_S256x1024_1_0_0_1_n_n.lhsIdx i q 0).val = (i 0).val := by
  unfold DotDims.lhsIdx
  rw [dif_neg (show ¬(0 : Fin S256x6144.rank) ∈ dot_S256x6144_S6144x1024_S256x1024_1_0_0_1_n_n.lhsBatch by decide), dif_pos (show (0 : Fin S256x6144.rank) ∈ dot_S256x6144_S6144x1024_S256x1024_1_0_0_1_n_n.lhsNonContracting by decide)]
  rfl
/-- The left operand's column coordinate is the contracted index. -/
theorem lhs_axis1 (i : S256x1024.Idx) (q : dot_S256x6144_S6144x1024_S256x1024_1_0_0_1_n_n.contr.Idx) :
    (dot_S256x6144_S6144x1024_S256x1024_1_0_0_1_n_n.lhsIdx i q 1).val = (q ⟨0, by decide⟩).val :=
  dot_S256x6144_S6144x1024_S256x1024_1_0_0_1_n_n.lhsIdx_val_of_single rfl i q
/-- The right operand's row coordinate is the contracted index. -/
theorem rhs_axis0 (i : S256x1024.Idx) (q : dot_S256x6144_S6144x1024_S256x1024_1_0_0_1_n_n.contr.Idx) :
    (dot_S256x6144_S6144x1024_S256x1024_1_0_0_1_n_n.rhsIdx i q 0).val = (q ⟨0, by decide⟩).val :=
  dot_S256x6144_S6144x1024_S256x1024_1_0_0_1_n_n.rhsIdx_val_of_single rfl i q
/-- The right operand's column coordinate is the output's column. -/
theorem rhs_axis1 (i : S256x1024.Idx) (q : dot_S256x6144_S6144x1024_S256x1024_1_0_0_1_n_n.contr.Idx) :
    (dot_S256x6144_S6144x1024_S256x1024_1_0_0_1_n_n.rhsIdx i q 1).val = (i 1).val := by
  unfold DotDims.rhsIdx
  rw [dif_neg (show ¬(1 : Fin S6144x1024.rank) ∈ dot_S256x6144_S6144x1024_S256x1024_1_0_0_1_n_n.rhsBatch by decide), dif_pos (show (1 : Fin S6144x1024.rank) ∈ dot_S256x6144_S6144x1024_S256x1024_1_0_0_1_n_n.rhsNonContracting by decide)]
  rfl

/-- The block product accumulated into zero, at an entry: the sum over the contracted index of the products. -/
theorem product_entry (a : FVec Ideal S256x6144 .bf16) (w : FVec Ideal S6144x1024 .bf16) (i : S256x1024.Idx) :
    matmul (F := Ideal) dot_S256x6144_S6144x1024_S256x1024_1_0_0_1_n_n none a w (constant (F := Ideal) S256x1024 .f32 0x00000000#32) i
      = ∑ k : Fin 6144, a (ix2 (i 0) k) * w (ix2 k (i 1)) := by
  simp only [matmul]
  rw [Ideal.matmul_constant_zero_apply, ← Equiv.sum_comp (contrEquiv1 dot_S256x6144_S6144x1024_S256x1024_1_0_0_1_n_n 6144 rfl rfl).symm]
  refine Finset.sum_congr rfl fun k _ => ?_
  have hk := contrEquiv1_symm_val dot_S256x6144_S6144x1024_S256x1024_1_0_0_1_n_n 6144 rfl rfl k
  have el : dot_S256x6144_S6144x1024_S256x1024_1_0_0_1_n_n.lhsIdx i ((contrEquiv1 dot_S256x6144_S6144x1024_S256x1024_1_0_0_1_n_n 6144 rfl rfl).symm k) = ix2 (i 0) k := funext fun b => Fin.ext (by
    match b with
    | ⟨0, _⟩ => exact lhs_axis0 _ _
    | ⟨1, _⟩ => exact (lhs_axis1 _ _).trans hk)
  have er : dot_S256x6144_S6144x1024_S256x1024_1_0_0_1_n_n.rhsIdx i ((contrEquiv1 dot_S256x6144_S6144x1024_S256x1024_1_0_0_1_n_n 6144 rfl rfl).symm k) = ix2 k (i 1) := funext fun b => Fin.ext (by
    match b with
    | ⟨0, _⟩ => exact (rhs_axis0 _ _).trans hk
    | ⟨1, _⟩ => exact rhs_axis1 _ _)
  rw [el, er]
  rfl

/-- The stored value at an entry: the loaded `256 × 1024` block there plus the block product there. -/
theorem stored_entry (a : Vec Ideal S256x6144 .f32) (w : Vec Ideal S6144x1024 .bf16) (x : Vec Ideal S256x1024 .f32) (i : S256x1024.Idx) :
    k0_pay1 (F := Ideal) a w x i = x i + ∑ k : Fin 6144, a (ix2 (i 0) k) * w (ix2 k (i 1)) := by
  unfold k0_pay1
  rw [addf_apply, shapeCast_self, product_entry]
  rfl

end Cert.KernelIdeal.BodyValue

end
-- ==== Proof.KernelValue.lean ====
/-
  The kernel's result array is the matrix plus the matrix product.

  The grid has 128 points. Point `t` loads rows `256 t … 256 t + 255` of the first two arguments and the whole third
  argument (changed in float format before the region, which is the identity on the extended reals), and writes rows
  `256 t … 256 t + 255` of the result. By the body's value at an entry, what point `t` writes at row `256 t + p` and
  column `q` is the first argument there plus the sum over `k` of the second argument at `(256 t + p, k)` times the
  third at `(k, q)`: block `t` of `addMatmul` of the arguments. The 128 row blocks cover the result, row `r` lying in
  the block of point `r / 256`, so the result array ends holding `addMatmul` of the arguments.
-/
import proofs.«409847_j1821066133818_3_alg».proof.Proof.Gen.KernelIdeal.Value
import proofs.«409847_j1821066133818_3_alg».proof.Proof.AddMatmul
import proofs.«409847_j1821066133818_3_alg».proof.Proof.BodyValue
import Idealize.ShloMosaic.Lib.Pipeline.Value
import Idealize.ShloMosaic.Lib.ValueIdx
import Idealize.ShloMosaic.Lib.StableHlo.Run

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.AddMatmul

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point `t`: the two row-blocked inputs and the output are at row block `t`, column block 0;
    the third input is always at block (0, 0). Decided over the 128 points. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The third window's array as the region finds it: the third argument, changed in float format. -/
theorem staged_third (c : Dev nD) :
    (V m c main_v0 : S6144x1024.Idx → EReal) = truncf (F := Ideal) .bf16 (m ((c : Thread nD τ).loc main_arg2)) bitsLt_bf16_f32 := by
  dsimp only [Gen.V, Gen.hostOps0]; after_results

/-- The three staged arrays as the region finds them, each at its literal type. -/
abbrev first (c : Dev nD) : S32768x1024.Idx → EReal := V m c main_arg0
abbrev second (c : Dev nD) : S32768x6144.Idx → EReal := V m c main_arg1
abbrev third (c : Dev nD) : S6144x1024.Idx → EReal := V m c main_v0

/-- The result the region leaves, over the arrays as the region finds them. -/
abbrev atEntry (c : Dev nD) : S32768x1024.Idx → EReal :=
  addMatmul (first m c) (second m c) (third m c)

/-- A block entry that reads the three arrays at the right places is `addMatmul` of them at the entry's place in
    the array. -/
theorem entry_of_reads (C : S32768x1024.Idx → EReal) (A : S32768x6144.Idx → EReal) (W : S6144x1024.Idx → EReal)
    (x : S256x1024.Idx → EReal) (a : S256x6144.Idx → EReal) (w : S6144x1024.Idx → EReal) (j : S256x1024.Idx) (i : S32768x1024.Idx)
    (hx : x j = C i) (ha : ∀ k : Fin 6144, a (ix2 (j 0) k) = A (ix2 (i 0) k)) (hw : ∀ k : Fin 6144, w (ix2 k (j 1)) = W (ix2 k (i 1))) :
    x j + ∑ k : Fin 6144, a (ix2 (j 0) k) * w (ix2 k (j 1)) = addMatmul C A W i := by
  unfold addMatmul
  rw [hx]
  exact congrArg (C i + ·) (Finset.sum_congr rfl fun k _ => by rw [ha k, hw k])

/-- What point `t` writes back is block `t` of `addMatmul` of the arrays the region finds. -/
theorem flushed_eq (c : Dev nD) (t : Fin cfg0.N) :
    (dats m 0 c).flushed 3 t = ((cfg0.win 3).blk t).view.read (Elt Ideal) (atEntry m c) := by
  rw [Value.flushed3]
  unfold out0_3
  rw [View.canon_unit_zero zero_offsets]
  simp only [View.ld_unit_zero (S := S256x6144) zero_offsets, View.ld_unit_zero (S := S6144x1024) zero_offsets,
    View.ld_unit_zero (S := S256x1024) zero_offsets]
  obtain ⟨e00, e01, e10, e11, e20, e21, e30, e31⟩ := block_indices t
  funext j
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 1024 + 1 * (j 1).val = win0_3.index t (1 : Fin 2) * 1024 + 1 * (j 1).val; omega
  have h1 : ∀ k : Fin 6144, ((cfg0.win 1).blk t).view.emb (ix2 (j 0) k) = ix2 ((((cfg0.win 3).blk t).view.emb j) 0) k := by
    intro k; funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 6144 + 1 * k.val = k.val; omega
  have h2 : ∀ k : Fin 6144, ((cfg0.win 2).blk t).view.emb (ix2 k (j 1)) = ix2 k ((((cfg0.win 3).blk t).view.emb j) 1) := by
    intro k; funext a; apply Fin.ext
    match a with
    | ⟨0, _⟩ => show win0_2.index t (0 : Fin 2) * 6144 + 1 * k.val = k.val; omega
    | ⟨1, _⟩ => show win0_2.index t (1 : Fin 2) * 1024 + 1 * (j 1).val = win0_3.index t (1 : Fin 2) * 1024 + 1 * (j 1).val; omega
  refine (BodyValue.stored_entry (iblk m c 1 t) (iblk m c 2 t) (iblk m c 0 t) j).trans ?_
  exact entry_of_reads (first m c) (second m c) (third m c) (iblk m c 0 t) (iblk m c 1 t) (iblk m c 2 t) j
    (((cfg0.win 3).blk t).view.emb j) (congrArg (first m c) h0) (fun k => congrArg (second m c) (h1 k))
    (fun k => congrArg (third m c) (h2 k))

/-- An index of the result is in point `t`'s block iff each coordinate is in the block's range on its axis. -/
theorem mem_block (t : Fin cfg0.N) (i : S32768x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1).slice (win0_3.rect t)).set ↔ _
  rw [View.set_slice_whole, Rect.mem_set_unit]
  exact Iff.rfl

/-- Every entry of the result lies in the block of the point its row falls in. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  obtain ⟨-, -, -, -, -, -, e30, e31⟩ := block_indices t
  have ht : t.val = (i 0).val / 256 := rfl
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The result array after the run: `addMatmul` of the three arguments as launched. -/
theorem final (c : Dev nD) : (dats m 0 c).arrAt 3 cfg0.N
    = addMatmul (m ((c : Thread nD τ).loc main_arg0)) (m ((c : Thread nD τ).loc main_arg1)) (m ((c : Thread nD τ).loc main_arg2)) := by
  rw [(dats m 0 c).arrAt_eq_of_cover 3 (atEntry m c) (fun t _ => flushed_eq m c t) covered]
  show addMatmul (V m c main_arg0) (V m c main_arg1) (V m c main_v0 : S6144x1024.Idx → EReal) = _
  rw [staged_third, V_main_arg0, V_main_arg1]
  rfl

/-- The kernel's run, read: the result array at `addMatmul` of the arguments, the arguments unchanged. -/
theorem run : θ_run defs (onTc (τ := τ) (main (F := Ideal))) ⟨m, fun _ => 0, ρ⟩ fun r => ∀ c : Dev nD,
      r.2.mem ((c : Thread nD τ).loc main_v1)
        = addMatmul (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  Both idealized programs compute one function of their three arguments: the first argument plus the matrix product of
  the second and the third, entry by entry on the extended reals (`Cert.AddMatmul.addMatmul`).

  The kernel walks the rows in 128 blocks of 256; at each block it adds the block of the first argument to the product
  of the block of the second argument with the whole third argument, accumulated into zero. The reference adds the
  first argument to the whole product. A change of float format is the identity on the extended reals, and a product
  accumulated into zero is the plain sum of products, so both results at `(r, c)` are the first argument there plus
  `∑ k, second (r, k) * third (k, c)`, term for term: no law of the extended reals that would need finite entries is
  used, and the precondition is never opened. The idealization rewrote nothing, so its claim is `True`.
-/
import proofs.«409847_j1821066133818_3_alg».proof.Defs
import proofs.«409847_j1821066133818_3_alg».proof.Proof.Gen.Kernel
import proofs.«409847_j1821066133818_3_alg».proof.Proof.Gen.Kernel.Skeleton
import proofs.«409847_j1821066133818_3_alg».proof.Proof.Gen.Kernel.Launch
import proofs.«409847_j1821066133818_3_alg».proof.Proof.Gen.Kernel.Points
import proofs.«409847_j1821066133818_3_alg».proof.Proof.Gen.Kernel.Frame
import proofs.«409847_j1821066133818_3_alg».proof.Proof.Gen.KernelIdeal
import proofs.«409847_j1821066133818_3_alg».proof.Proof.Gen.KernelIdeal.Skeleton
import proofs.«409847_j1821066133818_3_alg».proof.Proof.Gen.KernelIdeal.Launch
import proofs.«409847_j1821066133818_3_alg».proof.Proof.Gen.KernelIdeal.Points
import proofs.«409847_j1821066133818_3_alg».proof.Proof.Gen.KernelIdeal.Frame
import proofs.«409847_j1821066133818_3_alg».proof.Proof.Gen.KernelIdeal.Value
import proofs.«409847_j1821066133818_3_alg».proof.Proof.Gen.ReferenceIdeal
import proofs.«409847_j1821066133818_3_alg».proof.Proof.Gen.ReferenceIdeal.Run
import proofs.«409847_j1821066133818_3_alg».proof.Proof.Gen.ReferenceIdeal.Read
import proofs.«409847_j1821066133818_3_alg».proof.Proof.Gen.Pre_finite_inputs
import proofs.«409847_j1821066133818_3_alg».proof.Proof.AddMatmul
import proofs.«409847_j1821066133818_3_alg».proof.Proof.RefValue
import proofs.«409847_j1821066133818_3_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `addMatmul` of the arguments. -/
theorem algebraic : Cert.algebraic_KernelIdeal_ReferenceIdeal := by
  intro m ρ m' ρ' _ hagree
  refine ⟨fun c => Cert.AddMatmul.addMatmul (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
